-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x10 .f32) (main_arg5 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg4
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S4000x512 : Shape := ⟨2, ![4000, 512]⟩
abbrev S4000x64 : Shape := ⟨2, ![4000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x10 : Shape := ⟨2, ![100000, 10]⟩
abbrev S4000x10 : Shape := ⟨2, ![4000, 10]⟩
abbrev S3300000x10 : Shape := ⟨2, ![3300000, 10]⟩
abbrev S1x10 : Shape := ⟨2, ![1, 10]⟩

abbrev nBuf : Space → Nat
  | .hbm => 125
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x64, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x10, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x10, .f32⟩
  | .hbm, ⟨115, _⟩ => ⟨S3300000x1, .f32⟩
  | .hbm, ⟨116, _⟩ => ⟨S3300000x10, .f32⟩
  | .hbm, ⟨117, _⟩ => ⟨S3300000x10, .f32⟩
  | .hbm, ⟨118, _⟩ => ⟨S_, .f32⟩
  | .hbm, ⟨119, _⟩ => ⟨S100000x10, .f32⟩
  | .hbm, ⟨120, _⟩ => ⟨S3300000x1, .i32⟩
  | .hbm, ⟨121, _⟩ => ⟨S100000x10, .f32⟩
  | .hbm, ⟨122, _⟩ => ⟨S1x10, .f32⟩
  | .hbm, ⟨123, _⟩ => ⟨S100000x10, .f32⟩
  | .hbm, ⟨124, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x10, .f32⟩
  | .local _ .vmem, ⟨8, _⟩ => ⟨S4000x10, .f32⟩
  | .local _ .vmem, ⟨9, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64x10_S64x10_0_0 : ∀ a, (![0, 0] : Fin 2 → Nat) a + S64x10.size a ≤ S64x10.size a
  h_S64x10 : 0 < S64x10.numel
  inb_S4000x10_S4000x10_0_0 : ∀ a, (![0, 0] : Fin 2 → Nat) a + S4000x10.size a ≤ S4000x10.size a
  h_S4000x10 : 0 < S4000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S4000x512_S512x64_S4000x64_1_0_0_1_n_n_wf : DotDims.WF S4000x512 S512x64 S4000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x10_S4000x10_1_0_0_1_n_n_wf : DotDims.WF S4000x64 S64x10 S4000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x10.size a ≤ S64x10.size a
  hwx1_1 : ∀ i : grid1.Coords, EltTy.bits .f32 = 32 ∨ (Rect.block (s := S64x10) S64x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x10.size a ≤ S100000x10.size a
  hwx1_2 : ∀ i : grid1.Coords, EltTy.bits .f32 = 32 ∨ (Rect.block (s := S100000x10) S4000x10.size (cc1_transform_2 i) (hinb1_2 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x10_S4000x10_1_0_0_1_n_n : DotDims S4000x64 S64x10 S4000x10 where
  lhsContracting := [1]
  rhsContracting := [0]
  lhsNonContracting := [0]
  rhsNonContracting := [1]
  lhsBatch := []
  rhsBatch := []
  wf := dot_S4000x64_S64x10_S4000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x10 : Shape := ⟨2, ![100000, 10]⟩
abbrev S3300000x10 : Shape := ⟨2, ![3300000, 10]⟩
abbrev S1x10 : Shape := ⟨2, ![1, 10]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x64, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x10, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x10, .f32⟩
  | .hbm, ⟨115, _⟩ => ⟨S3300000x1, .f32⟩
  | .hbm, ⟨116, _⟩ => ⟨S3300000x10, .f32⟩
  | .hbm, ⟨117, _⟩ => ⟨S3300000x10, .f32⟩
  | .hbm, ⟨118, _⟩ => ⟨S_, .f32⟩
  | .hbm, ⟨119, _⟩ => ⟨S100000x10, .f32⟩
  | .hbm, ⟨120, _⟩ => ⟨S3300000x1, .i32⟩
  | .hbm, ⟨121, _⟩ => ⟨S100000x10, .f32⟩
  | .hbm, ⟨122, _⟩ => ⟨S1x10, .f32⟩
  | .hbm, ⟨123, _⟩ => ⟨S100000x10, .f32⟩
  | .hbm, ⟨124, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x10_S100000x10_1_0_0_1_n_n_wf : DotDims.WF S100000x64 S64x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.DotAsSum.lean ====
/-
  The reference's two matrix products, entry by entry.

  On the extended reals jnp's dot_general with one contracted axis is the plain sum: entry (r, q) of x · W is the sum over k of
  x[r, k] · W[k, q], with no accumulator and no order left in it. Stated for the reference's two products,
  [100000, 512] · [512, 64] and [100000, 64] · [64, 10], with the contraction re-indexed to its one coordinate.
-/
import proofs.«160589_j7576322311022_1_alg».proof.Proof.Gen.ReferenceIdeal
import Idealize.ShloMosaic.Lib.ValueIdx
import Idealize.ShloMosaic.PureOps.Ideal.Laws

noncomputable section

namespace Cert.ReferenceIdeal.DotAsSum

open Cert.ReferenceIdeal Cert.ReferenceIdeal.Gen
open Idealize.ShloMosaic Idealize.ShloMosaic.TcCoe Idealize.SL.Sem
open Idealize.ShloMosaic.ValueIdx
open scoped BigOperators

/-! ## x · W1 -/

/-- Row `i 0` of x, column `k`. -/
abbrev firstLeftAt (i : S100000x64.Idx) (k : Fin 512) : S100000x512.Idx := fun a => match a with
  | ⟨0, _⟩ => ⟨(i 0).val, (i 0).isLt⟩
  | ⟨1, _⟩ => ⟨k.val, k.isLt⟩
/-- Row `k` of W1, column `i 1`. -/
abbrev firstRightAt (i : S100000x64.Idx) (k : Fin 512) : S512x64.Idx := fun a => match a with
  | ⟨0, _⟩ => ⟨k.val, k.isLt⟩
  | ⟨1, _⟩ => ⟨(i 1).val, (i 1).isLt⟩

theorem first_lhs_0 (i : S100000x64.Idx) (q : dot_S100000x512_S512x64_S100000x64_1_0_0_1_n_n.contr.Idx) :
    (dot_S100000x512_S512x64_S100000x64_1_0_0_1_n_n.lhsIdx i q 0).val = (i 0).val := by
  unfold DotDims.lhsIdx
  rw [dif_neg (show ¬(0 : Fin S100000x512.rank) ∈ dot_S100000x512_S512x64_S100000x64_1_0_0_1_n_n.lhsBatch by decide), dif_pos (show (0 : Fin S100000x512.rank) ∈ dot_S100000x512_S512x64_S100000x64_1_0_0_1_n_n.lhsNonContracting by decide)]
  rfl
theorem first_lhs_1 (i : S100000x64.Idx) (q : dot_S100000x512_S512x64_S100000x64_1_0_0_1_n_n.contr.Idx) :
    (dot_S100000x512_S512x64_S100000x64_1_0_0_1_n_n.lhsIdx i q 1).val = (q ⟨0, by decide⟩).val :=
  dot_S100000x512_S512x64_S100000x64_1_0_0_1_n_n.lhsIdx_val_of_single rfl i q
theorem first_rhs_0 (i : S100000x64.Idx) (q : dot_S100000x512_S512x64_S100000x64_1_0_0_1_n_n.contr.Idx) :
    (dot_S100000x512_S512x64_S100000x64_1_0_0_1_n_n.rhsIdx i q 0).val = (q ⟨0, by decide⟩).val :=
  dot_S100000x512_S512x64_S100000x64_1_0_0_1_n_n.rhsIdx_val_of_single rfl i q
theorem first_rhs_1 (i : S100000x64.Idx) (q : dot_S100000x512_S512x64_S100000x64_1_0_0_1_n_n.contr.Idx) :
    (dot_S100000x512_S512x64_S100000x64_1_0_0_1_n_n.rhsIdx i q 1).val = (i 1).val := by
  unfold DotDims.rhsIdx
  rw [dif_neg (show ¬(1 : Fin S512x64.rank) ∈ dot_S100000x512_S512x64_S100000x64_1_0_0_1_n_n.rhsBatch by decide), dif_pos (show (1 : Fin S512x64.rank) ∈ dot_S100000x512_S512x64_S100000x64_1_0_0_1_n_n.rhsNonContracting by decide)]
  rfl

/-- Entry `i` of x · W1 on the extended reals. -/
theorem first_apply (X : FVec Ideal S100000x512 .f32) (W : FVec Ideal S512x64 .f32) (i : S100000x64.Idx) :
    Host.dotGeneral (F := Ideal) dot_S100000x512_S512x64_S100000x64_1_0_0_1_n_n none X W i
      = ∑ k : Fin 512, X (firstLeftAt i k) * W (firstRightAt i k) := by
  simp only [Host.dotGeneral]
  rw [Ideal.dotGeneral_apply, ← Equiv.sum_comp (ValueIdx.contrEquiv1 dot_S100000x512_S512x64_S100000x64_1_0_0_1_n_n 512 rfl rfl).symm]
  refine Finset.sum_congr rfl fun k _ => ?_
  have hk := ValueIdx.contrEquiv1_symm_val dot_S100000x512_S512x64_S100000x64_1_0_0_1_n_n 512 rfl rfl k
  have el : dot_S100000x512_S512x64_S100000x64_1_0_0_1_n_n.lhsIdx i ((ValueIdx.contrEquiv1 dot_S100000x512_S512x64_S100000x64_1_0_0_1_n_n 512 rfl rfl).symm k) = firstLeftAt i k := funext fun a => Fin.ext (by
    match a with
    | ⟨0, _⟩ => exact first_lhs_0 _ _
    | ⟨1, _⟩ => exact (first_lhs_1 _ _).trans hk)
  have er : dot_S100000x512_S512x64_S100000x64_1_0_0_1_n_n.rhsIdx i ((ValueIdx.contrEquiv1 dot_S100000x512_S512x64_S100000x64_1_0_0_1_n_n 512 rfl rfl).symm k) = firstRightAt i k := funext fun a => Fin.ext (by
    match a with
    | ⟨0, _⟩ => exact (first_rhs_0 _ _).trans hk
    | ⟨1, _⟩ => exact first_rhs_1 _ _)
  rw [el, er]

/-! ## h · W2 -/

/-- Row `i 0` of h, column `k`. -/
abbrev secondLeftAt (i : S100000x10.Idx) (k : Fin 64) : S100000x64.Idx := fun a => match a with
  | ⟨0, _⟩ => ⟨(i 0).val, (i 0).isLt⟩
  | ⟨1, _⟩ => ⟨k.val, k.isLt⟩
/-- Row `k` of W2, column `i 1`. -/
abbrev secondRightAt (i : S100000x10.Idx) (k : Fin 64) : S64x10.Idx := fun a => match a with
  | ⟨0, _⟩ => ⟨k.val, k.isLt⟩
  | ⟨1, _⟩ => ⟨(i 1).val, (i 1).isLt⟩

theorem second_lhs_0 (i : S100000x10.Idx) (q : dot_S100000x64_S64x10_S100000x10_1_0_0_1_n_n.contr.Idx) :
    (dot_S100000x64_S64x10_S100000x10_1_0_0_1_n_n.lhsIdx i q 0).val = (i 0).val := by
  unfold DotDims.lhsIdx
  rw [dif_neg (show ¬(0 : Fin S100000x64.rank) ∈ dot_S100000x64_S64x10_S100000x10_1_0_0_1_n_n.lhsBatch by decide), dif_pos (show (0 : Fin S100000x64.rank) ∈ dot_S100000x64_S64x10_S100000x10_1_0_0_1_n_n.lhsNonContracting by decide)]
  rfl
theorem second_lhs_1 (i : S100000x10.Idx) (q : dot_S100000x64_S64x10_S100000x10_1_0_0_1_n_n.contr.Idx) :
    (dot_S100000x64_S64x10_S100000x10_1_0_0_1_n_n.lhsIdx i q 1).val = (q ⟨0, by decide⟩).val :=
  dot_S100000x64_S64x10_S100000x10_1_0_0_1_n_n.lhsIdx_val_of_single rfl i q
theorem second_rhs_0 (i : S100000x10.Idx) (q : dot_S100000x64_S64x10_S100000x10_1_0_0_1_n_n.contr.Idx) :
    (dot_S100000x64_S64x10_S100000x10_1_0_0_1_n_n.rhsIdx i q 0).val = (q ⟨0, by decide⟩).val :=
  dot_S100000x64_S64x10_S100000x10_1_0_0_1_n_n.rhsIdx_val_of_single rfl i q
theorem second_rhs_1 (i : S100000x10.Idx) (q : dot_S100000x64_S64x10_S100000x10_1_0_0_1_n_n.contr.Idx) :
    (dot_S100000x64_S64x10_S100000x10_1_0_0_1_n_n.rhsIdx i q 1).val = (i 1).val := by
  unfold DotDims.rhsIdx
  rw [dif_neg (show ¬(1 : Fin S64x10.rank) ∈ dot_S100000x64_S64x10_S100000x10_1_0_0_1_n_n.rhsBatch by decide), dif_pos (show (1 : Fin S64x10.rank) ∈ dot_S100000x64_S64x10_S100000x10_1_0_0_1_n_n.rhsNonContracting by decide)]
  rfl

/-- Entry `i` of h · W2 on the extended reals. -/
theorem second_apply (X : FVec Ideal S100000x64 .f32) (W : FVec Ideal S64x10 .f32) (i : S100000x10.Idx) :
    Host.dotGeneral (F := Ideal) dot_S100000x64_S64x10_S100000x10_1_0_0_1_n_n none X W i
      = ∑ k : Fin 64, X (secondLeftAt i k) * W (secondRightAt i k) := by
  simp only [Host.dotGeneral]
  rw [Ideal.dotGeneral_apply, ← Equiv.sum_comp (ValueIdx.contrEquiv1 dot_S100000x64_S64x10_S100000x10_1_0_0_1_n_n 64 rfl rfl).symm]
  refine Finset.sum_congr rfl fun k _ => ?_
  have hk := ValueIdx.contrEquiv1_symm_val dot_S100000x64_S64x10_S100000x10_1_0_0_1_n_n 64 rfl rfl k
  have el : dot_S100000x64_S64x10_S100000x10_1_0_0_1_n_n.lhsIdx i ((ValueIdx.contrEquiv1 dot_S100000x64_S64x10_S100000x10_1_0_0_1_n_n 64 rfl rfl).symm k) = secondLeftAt i k := funext fun a => Fin.ext (by
    match a with
    | ⟨0, _⟩ => exact second_lhs_0 _ _
    | ⟨1, _⟩ => exact (second_lhs_1 _ _).trans hk)
  have er : dot_S100000x64_S64x10_S100000x10_1_0_0_1_n_n.rhsIdx i ((ValueIdx.contrEquiv1 dot_S100000x64_S64x10_S100000x10_1_0_0_1_n_n 64 rfl rfl).symm k) = secondRightAt i k := funext fun a => Fin.ext (by
    match a with
    | ⟨0, _⟩ => exact (second_rhs_0 _ _).trans hk
    | ⟨1, _⟩ => exact second_rhs_1 _ _)
  rw [el, er]

end Cert.ReferenceIdeal.DotAsSum

end
-- ==== Proof.FirstProduct.lean ====
/-
  The first dense layer, h = x · W1, as its region leaves it.

  The grid walks the 100000 rows of x in 25 blocks of 4000 rows. At a block the body loads the block of x (4000 × 512) and
  the whole of W1 (512 × 64), casts both to bf16 (on exact values a change of format is the identity), multiplies them into a
  zero accumulator and stores the 4000 × 64 result, which is written back as the same block of rows of the output array.
  So entry (r, q) of the array after the run is the sum over k of x[r, k] · W1[k, q]: row r of x against column q of W1,
  whatever block r lies in. The blocks are disjoint and fill the array, so the array is that function everywhere.
  Everything is stated at a parameter V, the buffers' contents when the region is entered.
-/
import proofs.«160589_j7576322311022_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The product, entry by entry -/

/-- Where entry `i` of the product reads the left array at step `k`: row `i 0`, column `k`. -/
abbrev leftAt (i : S100000x64.Idx) (k : Fin 512) : S100000x512.Idx := fun a => match a with
  | ⟨0, _⟩ => ⟨(i 0).val, (i 0).isLt⟩
  | ⟨1, _⟩ => ⟨k.val, k.isLt⟩
/-- Where it reads the right array: row `k`, column `i 1`. -/
abbrev rightAt (i : S100000x64.Idx) (k : Fin 512) : S512x64.Idx := fun a => match a with
  | ⟨0, _⟩ => ⟨k.val, k.isLt⟩
  | ⟨1, _⟩ => ⟨(i 1).val, (i 1).isLt⟩

/-- The matrix product of a 100000 × 512 array and a 512 × 64 array over the extended reals. -/
def product (X : FVec Ideal S100000x512 .f32) (W : FVec Ideal S512x64 .f32) : FVec Ideal S100000x64 .f32 :=
  fun i => ∑ k : Fin 512, X (leftAt i k) * W (rightAt i k)

/-! ## One block: the body's stored value, entry by entry -/

/-- Inside a block: row `j 0` of the block of x, column `k`. -/
abbrev blockLeftAt (j : S4000x64.Idx) (k : Fin 512) : S4000x512.Idx := fun a => match a with
  | ⟨0, _⟩ => ⟨(j 0).val, (j 0).isLt⟩
  | ⟨1, _⟩ => ⟨k.val, k.isLt⟩
/-- Row `k` of W1, column `j 1`. -/
abbrev blockRightAt (j : S4000x64.Idx) (k : Fin 512) : S512x64.Idx := fun a => match a with
  | ⟨0, _⟩ => ⟨k.val, k.isLt⟩
  | ⟨1, _⟩ => ⟨(j 1).val, (j 1).isLt⟩

theorem lhs_block_0 (j : S4000x64.Idx) (q : dot_S4000x512_S512x64_S4000x64_1_0_0_1_n_n.contr.Idx) :
    (dot_S4000x512_S512x64_S4000x64_1_0_0_1_n_n.lhsIdx j q 0).val = (j 0).val := by
  unfold DotDims.lhsIdx
  rw [dif_neg (show ¬(0 : Fin S4000x512.rank) ∈ dot_S4000x512_S512x64_S4000x64_1_0_0_1_n_n.lhsBatch by decide), dif_pos (show (0 : Fin S4000x512.rank) ∈ dot_S4000x512_S512x64_S4000x64_1_0_0_1_n_n.lhsNonContracting by decide)]
  rfl
theorem lhs_block_1 (j : S4000x64.Idx) (q : dot_S4000x512_S512x64_S4000x64_1_0_0_1_n_n.contr.Idx) :
    (dot_S4000x512_S512x64_S4000x64_1_0_0_1_n_n.lhsIdx j q 1).val = (q ⟨0, by decide⟩).val :=
  dot_S4000x512_S512x64_S4000x64_1_0_0_1_n_n.lhsIdx_val_of_single rfl j q
theorem rhs_block_0 (j : S4000x64.Idx) (q : dot_S4000x512_S512x64_S4000x64_1_0_0_1_n_n.contr.Idx) :
    (dot_S4000x512_S512x64_S4000x64_1_0_0_1_n_n.rhsIdx j q 0).val = (q ⟨0, by decide⟩).val :=
  dot_S4000x512_S512x64_S4000x64_1_0_0_1_n_n.rhsIdx_val_of_single rfl j q
theorem rhs_block_1 (j : S4000x64.Idx) (q : dot_S4000x512_S512x64_S4000x64_1_0_0_1_n_n.contr.Idx) :
    (dot_S4000x512_S512x64_S4000x64_1_0_0_1_n_n.rhsIdx j q 1).val = (j 1).val := by
  unfold DotDims.rhsIdx
  rw [dif_neg (show ¬(1 : Fin S512x64.rank) ∈ dot_S4000x512_S512x64_S4000x64_1_0_0_1_n_n.rhsBatch by decide), dif_pos (show (1 : Fin S512x64.rank) ∈ dot_S4000x512_S512x64_S4000x64_1_0_0_1_n_n.rhsNonContracting by decide)]
  rfl

/-- What the body stores, at an entry of the block: the casts are the identity and the accumulator is zero, so it is the
    sum over the contracted axis of the products. -/
theorem stored_apply (x0 : Vec Ideal S4000x512 .f32) (x1 : Vec Ideal S512x64 .f32) (j : S4000x64.Idx) :
    k0_pay1 (F := Ideal) x0 x1 j = ∑ k : Fin 512, x0 (blockLeftAt j k) * x1 (blockRightAt j k) := by
  unfold k0_pay1
  show matmul dot_S4000x512_S512x64_S4000x64_1_0_0_1_n_n none (truncf (F := Ideal) .bf16 x0 bitsLt_bf16_f32) (truncf (F := Ideal) .bf16 x1 bitsLt_bf16_f32) (constant (F := Ideal) S4000x64 .f32 0x00000000#32) j = _
  simp only [matmul]
  rw [Ideal.matmul_constant_zero_apply, ← Equiv.sum_comp (ValueIdx.contrEquiv1 dot_S4000x512_S512x64_S4000x64_1_0_0_1_n_n 512 rfl rfl).symm]
  refine Finset.sum_congr rfl fun k _ => ?_
  have hk := ValueIdx.contrEquiv1_symm_val dot_S4000x512_S512x64_S4000x64_1_0_0_1_n_n 512 rfl rfl k
  have el : dot_S4000x512_S512x64_S4000x64_1_0_0_1_n_n.lhsIdx j ((ValueIdx.contrEquiv1 dot_S4000x512_S512x64_S4000x64_1_0_0_1_n_n 512 rfl rfl).symm k) = blockLeftAt j k := funext fun a => Fin.ext (by
    match a with
    | ⟨0, _⟩ => exact lhs_block_0 _ _
    | ⟨1, _⟩ => exact (lhs_block_1 _ _).trans hk)
  have er : dot_S4000x512_S512x64_S4000x64_1_0_0_1_n_n.rhsIdx j ((ValueIdx.contrEquiv1 dot_S4000x512_S512x64_S4000x64_1_0_0_1_n_n 512 rfl rfl).symm k) = blockRightAt j k := funext fun a => Fin.ext (by
    match a with
    | ⟨0, _⟩ => exact (rhs_block_0 _ _).trans hk
    | ⟨1, _⟩ => exact rhs_block_1 _ _)
  rw [el, er]
  rfl

/-! ## From the blocks to the array -/

variable (V : (c : Dev nD) → (b : Ref sig .tc) → Buf (Elt Ideal) ((c : Thread nD τ).loc b))

/-- The array the region finds at x's buffer, at its literal type. -/
abbrev leftArray (c : Dev nD) : FVec Ideal S100000x512 .f32 := V c main_arg0
/-- The array the region finds at W1's buffer, at its literal type. -/
abbrev rightArray (c : Dev nD) : FVec Ideal S512x64 .f32 := V c main_arg2

theorem zero_offsets : (![0, 0] : Fin 2 → Nat) = fun _ => 0 := funext fun a => by fin_cases a <;> rfl

/-- The printed index maps, decided over the 25 grid points: the block of x and the output block move together down the
    rows, point `t` at block row `t`; W1's block is always the whole of W1; no block is offset along the columns. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the arrays the region finds at x's and W1's buffers. -/
theorem flushed_eq (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S4000x512) zero_offsets, View.ld_unit_zero (S := S512x64) zero_offsets]
  obtain ⟨e0, e1, e2, e3, e4, e5⟩ := index_maps t
  funext j
  show k0_pay1 (F := Ideal) (iblk0 V c 0 t) (iblk0 V c 1 t) j = product (V c main_arg0) (V c main_arg2) (((cfg0.win 2).blk t).view.emb j)
  refine (stored_apply (iblk0 V c 0 t) (iblk0 V c 1 t) j).trans ?_
  unfold product
  refine Finset.sum_congr rfl fun k _ => ?_
  have hl : ((cfg0.win 0).blk t).view.emb (blockLeftAt j k) = leftAt (((cfg0.win 2).blk t).view.emb j) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  have hr : ((cfg0.win 1).blk t).view.emb (blockRightAt j k) = rightAt (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 64 + 1 * (j 1).val = win0_2.index t (1 : Fin 2) * 64 + 1 * (j 1).val; omega
  show leftArray V c (((cfg0.win 0).blk t).view.emb (blockLeftAt j k)) * rightArray V c (((cfg0.win 1).blk t).view.emb (blockRightAt j k))
      = leftArray V c (leftAt (((cfg0.win 2).blk t).view.emb j) k) * rightArray V c (rightAt (((cfg0.win 2).blk t).view.emb j) k)
  rw [hl, hr]

/-- An entry of the output array lies in point `t`'s block exactly when each coordinate is in the block's range. -/
theorem mem_block (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v4).slice (win0_2.rect t)).set ↔ _
  rw [View.set_slice_whole, Rect.mem_set_unit]
  exact Iff.rfl

/-- Every entry lies in the block of the point numbered by its row divided by 4000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨e0, e1, e2, e3, e4, e5⟩ := index_maps t
  have ht : t.val = (i 0).val / 4000 := rfl
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The output array after the region's run is the product of the two arrays the region found. -/
theorem array_eq (c : Dev nD) :
    (dat0 (F := Ideal) V c).arrAt 2 cfg0.N = product (V c main_arg0) (V c main_arg2) :=
  (dat0 (F := Ideal) V c).arrAt_eq_of_cover 2 _ (fun t _ => flushed_eq V c t) covered

end Cert.KernelIdeal.FirstProduct

end
-- ==== Proof.SecondProduct.lean ====
/-
  The second dense layer, h2 = h · W2, as its region leaves it.

  The grid walks the 100000 rows of h (the hidden activations, 64 wide) in 25 blocks of 4000 rows. At a block the body loads
  the block of h (4000 × 64) and the whole of W2 (64 × 10), casts both to bf16 (the identity on exact values; the shape cast
  before it is to the same shape), multiplies them into a zero accumulator and stores the 4000 × 10 result, written back as the
  same block of rows of the output array. So entry (r, q) of the array after the run is the sum over k of h[r, k] · W2[k, q].
  The blocks are disjoint and fill the array. Everything is stated at a parameter V, the buffers' contents when the region is
  entered.
-/
import proofs.«160589_j7576322311022_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The product, entry by entry -/

/-- Where entry `i` of the product reads the left array at step `k`: row `i 0`, column `k`. -/
abbrev leftAt (i : S100000x10.Idx) (k : Fin 64) : S100000x64.Idx := fun a => match a with
  | ⟨0, _⟩ => ⟨(i 0).val, (i 0).isLt⟩
  | ⟨1, _⟩ => ⟨k.val, k.isLt⟩
/-- Where it reads the right array: row `k`, column `i 1`. -/
abbrev rightAt (i : S100000x10.Idx) (k : Fin 64) : S64x10.Idx := fun a => match a with
  | ⟨0, _⟩ => ⟨k.val, k.isLt⟩
  | ⟨1, _⟩ => ⟨(i 1).val, (i 1).isLt⟩

/-- The matrix product of a 100000 × 64 array and a 64 × 10 array over the extended reals. -/
def product (X : FVec Ideal S100000x64 .f32) (W : FVec Ideal S64x10 .f32) : FVec Ideal S100000x10 .f32 :=
  fun i => ∑ k : Fin 64, X (leftAt i k) * W (rightAt i k)

/-! ## One block: the body's stored value, entry by entry -/

/-- Inside a block: row `j 0` of the block of h, column `k`. -/
abbrev blockLeftAt (j : S4000x10.Idx) (k : Fin 64) : S4000x64.Idx := fun a => match a with
  | ⟨0, _⟩ => ⟨(j 0).val, (j 0).isLt⟩
  | ⟨1, _⟩ => ⟨k.val, k.isLt⟩
/-- Row `k` of W2, column `j 1`. -/
abbrev blockRightAt (j : S4000x10.Idx) (k : Fin 64) : S64x10.Idx := fun a => match a with
  | ⟨0, _⟩ => ⟨k.val, k.isLt⟩
  | ⟨1, _⟩ => ⟨(j 1).val, (j 1).isLt⟩

theorem lhs_block_0 (j : S4000x10.Idx) (q : dot_S4000x64_S64x10_S4000x10_1_0_0_1_n_n.contr.Idx) :
    (dot_S4000x64_S64x10_S4000x10_1_0_0_1_n_n.lhsIdx j q 0).val = (j 0).val := by
  unfold DotDims.lhsIdx
  rw [dif_neg (show ¬(0 : Fin S4000x64.rank) ∈ dot_S4000x64_S64x10_S4000x10_1_0_0_1_n_n.lhsBatch by decide), dif_pos (show (0 : Fin S4000x64.rank) ∈ dot_S4000x64_S64x10_S4000x10_1_0_0_1_n_n.lhsNonContracting by decide)]
  rfl
theorem lhs_block_1 (j : S4000x10.Idx) (q : dot_S4000x64_S64x10_S4000x10_1_0_0_1_n_n.contr.Idx) :
    (dot_S4000x64_S64x10_S4000x10_1_0_0_1_n_n.lhsIdx j q 1).val = (q ⟨0, by decide⟩).val :=
  dot_S4000x64_S64x10_S4000x10_1_0_0_1_n_n.lhsIdx_val_of_single rfl j q
theorem rhs_block_0 (j : S4000x10.Idx) (q : dot_S4000x64_S64x10_S4000x10_1_0_0_1_n_n.contr.Idx) :
    (dot_S4000x64_S64x10_S4000x10_1_0_0_1_n_n.rhsIdx j q 0).val = (q ⟨0, by decide⟩).val :=
  dot_S4000x64_S64x10_S4000x10_1_0_0_1_n_n.rhsIdx_val_of_single rfl j q
theorem rhs_block_1 (j : S4000x10.Idx) (q : dot_S4000x64_S64x10_S4000x10_1_0_0_1_n_n.contr.Idx) :
    (dot_S4000x64_S64x10_S4000x10_1_0_0_1_n_n.rhsIdx j q 1).val = (j 1).val := by
  unfold DotDims.rhsIdx
  rw [dif_neg (show ¬(1 : Fin S64x10.rank) ∈ dot_S4000x64_S64x10_S4000x10_1_0_0_1_n_n.rhsBatch by decide), dif_pos (show (1 : Fin S64x10.rank) ∈ dot_S4000x64_S64x10_S4000x10_1_0_0_1_n_n.rhsNonContracting by decide)]
  rfl

/-- What the body stores, at an entry of the block: the cast to the same shape and the casts of format are the identity
    and the accumulator is zero, so it is the sum over the contracted axis of the products. -/
theorem stored_apply (x0 : Vec Ideal S4000x64 .f32) (x1 : Vec Ideal S64x10 .f32) (j : S4000x10.Idx) :
    k1_pay1 (F := Ideal) x0 x1 j = ∑ k : Fin 64, x0 (blockLeftAt j k) * x1 (blockRightAt j k) := by
  unfold k1_pay1
  show matmul dot_S4000x64_S64x10_S4000x10_1_0_0_1_n_n none (truncf (F := Ideal) .bf16 (shapeCast S4000x64 x0 shapeCasts_S4000x64_S4000x64) bitsLt_bf16_f32) (truncf (F := Ideal) .bf16 x1 bitsLt_bf16_f32) (constant (F := Ideal) S4000x10 .f32 0x00000000#32) j = _
  rw [shapeCast_self]
  simp only [matmul]
  rw [Ideal.matmul_constant_zero_apply, ← Equiv.sum_comp (ValueIdx.contrEquiv1 dot_S4000x64_S64x10_S4000x10_1_0_0_1_n_n 64 rfl rfl).symm]
  refine Finset.sum_congr rfl fun k _ => ?_
  have hk := ValueIdx.contrEquiv1_symm_val dot_S4000x64_S64x10_S4000x10_1_0_0_1_n_n 64 rfl rfl k
  have el : dot_S4000x64_S64x10_S4000x10_1_0_0_1_n_n.lhsIdx j ((ValueIdx.contrEquiv1 dot_S4000x64_S64x10_S4000x10_1_0_0_1_n_n 64 rfl rfl).symm k) = blockLeftAt j k := funext fun a => Fin.ext (by
    match a with
    | ⟨0, _⟩ => exact lhs_block_0 _ _
    | ⟨1, _⟩ => exact (lhs_block_1 _ _).trans hk)
  have er : dot_S4000x64_S64x10_S4000x10_1_0_0_1_n_n.rhsIdx j ((ValueIdx.contrEquiv1 dot_S4000x64_S64x10_S4000x10_1_0_0_1_n_n 64 rfl rfl).symm k) = blockRightAt j k := funext fun a => Fin.ext (by
    match a with
    | ⟨0, _⟩ => exact (rhs_block_0 _ _).trans hk
    | ⟨1, _⟩ => exact rhs_block_1 _ _)
  rw [el, er]
  rfl

/-! ## From the blocks to the array -/

variable (V : (c : Dev nD) → (b : Ref sig .tc) → Buf (Elt Ideal) ((c : Thread nD τ).loc b))

/-- The array the region finds at h's buffer, at its literal type. -/
abbrev leftArray (c : Dev nD) : FVec Ideal S100000x64 .f32 := V c main_v47
/-- The array the region finds at W2's buffer, at its literal type. -/
abbrev rightArray (c : Dev nD) : FVec Ideal S64x10 .f32 := V c main_arg4

theorem zero_offsets : (![0, 0] : Fin 2 → Nat) = fun _ => 0 := funext fun a => by fin_cases a <;> rfl

/-- The printed index maps, decided over the 25 grid points: the block of h and the output block move together down the
    rows, point `t` at block row `t`; W2's block is always the whole of W2; no block is offset along the columns. -/
theorem index_maps : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the product of the arrays the region finds at h's and W2's buffers. -/
theorem flushed_eq (c : Dev nD) (t : Fin cfg1.N) :
    (dat1 (F := Ideal) V c).flushed 2 t
      = ((cfg1.win 2).blk t).view.read (Elt Ideal) (product (V c main_v47) (V c main_arg4)) := by
  show (cfg1.win 2).cut (grid1.coords t) ((dat1 (F := Ideal) V c).after 2 t) = _
  rw [after1_2]
  unfold out1_2
  rw [View.canon_unit_zero zero_offsets]
  simp only [View.ld_unit_zero (S := S4000x64) zero_offsets, View.ld_unit_zero (S := S64x10) zero_offsets]
  obtain ⟨e0, e1, e2, e3, e4, e5⟩ := index_maps t
  funext j
  show k1_pay1 (F := Ideal) (iblk1 V c 0 t) (iblk1 V c 1 t) j = product (V c main_v47) (V c main_arg4) (((cfg1.win 2).blk t).view.emb j)
  refine (stored_apply (iblk1 V c 0 t) (iblk1 V c 1 t) j).trans ?_
  unfold product
  refine Finset.sum_congr rfl fun k _ => ?_
  have hl : ((cfg1.win 0).blk t).view.emb (blockLeftAt j k) = leftAt (((cfg1.win 2).blk t).view.emb j) k := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * k.val = k.val; omega
  have hr : ((cfg1.win 1).blk t).view.emb (blockRightAt j k) = rightAt (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 10 + 1 * (j 1).val = win1_2.index t (1 : Fin 2) * 10 + 1 * (j 1).val; omega
  show leftArray V c (((cfg1.win 0).blk t).view.emb (blockLeftAt j k)) * rightArray V c (((cfg1.win 1).blk t).view.emb (blockRightAt j k))
      = leftArray V c (leftAt (((cfg1.win 2).blk t).view.emb j) k) * rightArray V c (rightAt (((cfg1.win 2).blk t).view.emb j) k)
  rw [hl, hr]

/-- An entry of the output array lies in point `t`'s block exactly when each coordinate is in the block's range. -/
theorem mem_block (t : Fin cfg1.N) (i : S100000x10.Idx) :
    i ∈ ((cfg1.win 2).blk t).view.set ↔ ∀ a : Fin 2, win1_2.index t a * S4000x10.size a ≤ (i a).val ∧ (i a).val < win1_2.index t a * S4000x10.size a + S4000x10.size a := by
  show i ∈ ((View.whole main_v48).slice (win1_2.rect t)).set ↔ _
  rw [View.set_slice_whole, Rect.mem_set_unit]
  exact Iff.rfl

/-- Every entry lies in the block of the point numbered by its row divided by 4000. -/
theorem covered (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  have hN : cfg1.N = 25 := N_1
  let t : Fin cfg1.N := ⟨(i 0).val / 4000, by rw [hN]; omega⟩
  obtain ⟨e0, e1, e2, e3, e4, e5⟩ := index_maps t
  have ht : t.val = (i 0).val / 4000 := rfl
  refine ⟨t, flush1_2 t, ?_⟩
  rw [mem_block]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 10 ≤ (i 1).val ∧ (i 1).val < win1_2.index t (1 : Fin 2) * 10 + 10; omega

/-- The output array after the region's run is the product of the two arrays the region found. -/
theorem array_eq (c : Dev nD) :
    (dat1 (F := Ideal) V c).arrAt 2 cfg1.N = product (V c main_v47) (V c main_arg4) :=
  (dat1 (F := Ideal) V c).arrAt_eq_of_cover 2 _ (fun t _ => flushed_eq V c t) covered

end Cert.KernelIdeal.SecondProduct

end
-- ==== Proof.Stages.lean ====
/-
  The two-layer graph convolution, as named stages.

  Both programs compute the same thing around their two matrix products. From the 2 × 3200000 edge array take the sources and
  the targets, append the 100000 self loops to each, and count the in-degree of every node by scattering ones at the targets;
  a node's weight is the reciprocal square root of its degree where the degree is positive and zero elsewhere; an edge's weight
  is the product of its two endpoints' weights (negative indices wrapped by the node count before each gather). A layer takes a
  node-feature array h, gathers the source rows, scales each by its edge's weight, scatter-adds them at the targets and adds the
  bias; between the layers is a maximum with zero. The stages are functions of the float family, of the edge array and of the
  arrays going in; the two matrix products are parameters of the composition, so that a program is described by saying what its
  products are.
-/
import proofs.«160589_j7576322311022_1_alg».proof.Proof.Gen.KernelIdeal

noncomputable section

namespace Cert.KernelIdeal.Stages

open Cert.KernelIdeal Cert.KernelIdeal.Gen
open Idealize.ShloMosaic Idealize.ShloMosaic.TcCoe Idealize.SL.Sem

variable {F : FTy → Type} [FloatOps F]

/-! ## The edges -/

/-- Row 0 of the edge array: the sources. -/
def sourcesOf (e : IVec S2x3200000 32) : IVec S3200000 32 :=
  shapeCast S3200000 (extractStridedSlice S1x3200000 ![0, 0] e slices_S2x3200000_S1x3200000_0_0) shapeCasts_S1x3200000_S3200000
/-- Row 1 of the edge array: the targets. -/
def targetsOf (e : IVec S2x3200000 32) : IVec S3200000 32 :=
  shapeCast S3200000 (extractStridedSlice S1x3200000 ![1, 0] e slices_S2x3200000_S1x3200000_1_0) shapeCasts_S1x3200000_S3200000

/-- One list of 3200000 endpoints followed by a list of 100000. -/
def joinLoops (a : IVec S3200000 32) (b : IVec S100000 32) : IVec S3300000 32 :=
  concatenate S3300000 0 [⟨S3200000, a⟩, ⟨S100000, b⟩] concatenates_S3200000_S100000_S3300000_d0
theorem join_fold (a : IVec S3200000 32) (b : IVec S100000 32) :
    concatenate S3300000 0 [⟨S3200000, a⟩, ⟨S100000, b⟩] concatenates_S3200000_S100000_S3300000_d0 = joinLoops a b := rfl

/-- The endpoints with the self loops 0, 1, …, 99999 appended. -/
def withLoops (a : IVec S3200000 32) : IVec S3300000 32 := joinLoops a (iotaInDim S100000 32 0)

/-- A negative index counted from the end: add the node count where the index is below zero. -/
def wrapIndex (x : IVec S3300000 32) : IVec S3300000 32 :=
  select (cmpi .slt x (broadcastInDim S3300000 ![] bcast_S_S3300000 (constantI S_ 32 0#32)))
    (addi x (broadcastInDim S3300000 ![] bcast_S_S3300000 (constantI S_ 32 100000#32))) x

/-- An index list as the one-column array of start indices a gather or scatter takes. -/
def asColumn (x : IVec S3300000 32) : IVec S3300000x1 32 := broadcastInDim S3300000x1 ![0] bcast_S3300000_S3300000x1_0 x

/-! ## Degrees and edge weights -/

/-- The in-degree of every node, self loops counted: ones scattered at the targets into zeros. -/
def degree (dst : IVec S3200000 32) : FVec F S100000 .f32 :=
  Host.scatterAdd scatter_S100000_S3300000x1_S3300000_n_0_0_1
    (broadcastInDim S100000 ![] bcast_S_S100000 (constant (F := F) S_ .f32 0x00000000#32))
    (asColumn (withLoops dst))
    (broadcastInDim S3300000 ![] bcast_S_S3300000 (constant (F := F) S_ .f32 0x3F800000#32))

/-- A node's weight: the reciprocal square root of its degree where that is positive, zero elsewhere. -/
def nodeWeight (dst : IVec S3200000 32) : FVec F S100000 .f32 :=
  select (cmpf (F := F) .ogt (degree dst) (broadcastInDim S100000 ![] bcast_S_S100000 (constant (F := F) S_ .f32 0x00000000#32)))
    (Host.rsqrt (degree (F := F) dst))
    (broadcastInDim S100000 ![] bcast_S_S100000 (constant (F := F) S_ .f32 0x00000000#32))

/-- An edge's weight: the product of its source's and its target's weights. -/
def edgeWeight (src dst : IVec S3200000 32) : FVec F S3300000 .f32 :=
  mulf
    (Host.gather gather_S100000_S3300000x1_S3300000_n_0_n_n_0_1_1 (nodeWeight (F := F) dst) (asColumn (wrapIndex (withLoops src))))
    (Host.gather gather_S100000_S3300000x1_S3300000_n_0_n_n_0_1_1 (nodeWeight (F := F) dst) (asColumn (wrapIndex (withLoops dst))))

/-! ## The layers -/

/-- Aggregation over 64 features: gather the source rows of `h`, scale by the edge weights, add up at the targets, add the bias. -/
def aggregate64 (src dst : IVec S3200000 32) (h : FVec F S100000x64 .f32) (b : FVec F S64 .f32) : FVec F S100000x64 .f32 :=
  addf
    (Host.scatterAdd scatter_S100000x64_S3300000x1_S3300000x64_1_0_0_1
      (broadcastInDim S100000x64 ![] bcast_S_S100000x64 (constant (F := F) S_ .f32 0x00000000#32))
      (asColumn (withLoops dst))
      (mulf
        (Host.gather gather_S100000x64_S3300000x1_S3300000x64_1_0_n_n_0_1_164 h (asColumn (wrapIndex (withLoops src))))
        (broadcastInDim S3300000x64 ![0, 1] bcast_S3300000x1_S3300000x64_0_1
          (broadcastInDim S3300000x1 ![0] bcast_S3300000_S3300000x1_0 (edgeWeight (F := F) src dst)))))
    (broadcastInDim S100000x64 ![0, 1] bcast_S1x64_S100000x64_0_1 (broadcastInDim S1x64 ![1] bcast_S64_S1x64_1 b))

/-- The maximum with zero, entry by entry. -/
def relu64 (h : FVec F S100000x64 .f32) : FVec F S100000x64 .f32 :=
  maximumf h (broadcastInDim S100000x64 ![] bcast_S_S100000x64 (constant (F := F) S_ .f32 0x00000000#32))

/-- Aggregation over 10 features. -/
def aggregate10 (src dst : IVec S3200000 32) (h : FVec F S100000x10 .f32) (b : FVec F S10 .f32) : FVec F S100000x10 .f32 :=
  addf
    (Host.scatterAdd scatter_S100000x10_S3300000x1_S3300000x10_1_0_0_1
      (broadcastInDim S100000x10 ![] bcast_S_S100000x10 (constant (F := F) S_ .f32 0x00000000#32))
      (asColumn (withLoops dst))
      (mulf
        (Host.gather gather_S100000x10_S3300000x1_S3300000x10_1_0_n_n_0_1_110 h (asColumn (wrapIndex (withLoops src))))
        (broadcastInDim S3300000x10 ![0, 1] bcast_S3300000x1_S3300000x10_0_1
          (broadcastInDim S3300000x1 ![0] bcast_S3300000_S3300000x1_0 (edgeWeight (F := F) src dst)))))
    (broadcastInDim S100000x10 ![0, 1] bcast_S1x10_S100000x10_0_1 (broadcastInDim S1x10 ![1] bcast_S10_S1x10_1 b))

/-- The whole network over given matrix products `P1` (into the 64 hidden features) and `P2` (into the 10 outputs). -/
def network (P1 : FVec F S100000x512 .f32 → FVec F S512x64 .f32 → FVec F S100000x64 .f32)
    (P2 : FVec F S100000x64 .f32 → FVec F S64x10 .f32 → FVec F S100000x10 .f32)
    (x : FVec F S100000x512 .f32) (e : IVec S2x3200000 32) (w1 : FVec F S512x64 .f32) (b1 : FVec F S64 .f32)
    (w2 : FVec F S64x10 .f32) (b2 : FVec F S10 .f32) : FVec F S100000x10 .f32 :=
  aggregate10 (sourcesOf e) (targetsOf e)
    (P2 (relu64 (aggregate64 (sourcesOf e) (targetsOf e) (P1 x w1) b1)) w2) b2

end Cert.KernelIdeal.Stages

end
-- ==== Proof.Stretches.lean ====
/-
  What the host stretches of the kernel's program compute, read off as the named stages.

  @main's host lines come in three groups: the four lines before the first product (the two rows of the edge array), the lines
  between the two products (one aggregation over 64 features and the maximum with zero) and the lines after the second product
  (one aggregation over 10 features). Each group is a list of operations folded over the buffers' contents; here each fold is
  read at the buffers a later item uses, from ANY contents `Wv` at the group's entry: the result buffer holds the stage function
  of the entry contents at the buffers the group reads, and a buffer no line of the group writes holds what it held.
-/
import proofs.«160589_j7576322311022_1_alg».proof.Proof.Gen.KernelIdeal.Launch
import proofs.«160589_j7576322311022_1_alg».proof.Proof.Stages
import Idealize.ShloMosaic.Lib.StableHlo.Run

set_option maxRecDepth 16384

noncomputable section

namespace Cert.KernelIdeal.Stretches

open Cert.KernelIdeal Cert.KernelIdeal.Gen Cert.KernelIdeal.Stages
open Idealize.ShloMosaic Idealize.ShloMosaic.TcCoe Idealize.SL.Sem Idealize.ShloMosaic.StableHlo

variable {F : FTy → Type} [FloatOps F] (Wv : Valuation τ sig (Elt F))

/-- Read a fold of host operations at a buffer: each operation's result at its own buffer is its function of its operands'
    contents, and at any other buffer what was there; a join of two endpoint lists is named so that its operands are read too. -/
local macro "read_fold" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', join_fold])

/-! ## Before the first product -/

theorem sources_at : StableHlo.after hostOps0 Wv (Proc.devRef .tc main_v1) = sourcesOf (Wv (Proc.devRef .tc main_arg1)) := by
  read_fold
  rfl
theorem targets_at : StableHlo.after hostOps0 Wv (Proc.devRef .tc main_v3) = targetsOf (Wv (Proc.devRef .tc main_arg1)) := by
  read_fold
  rfl
theorem entry_keeps_arg0 : StableHlo.after hostOps0 Wv (Proc.devRef .tc main_arg0) = Wv (Proc.devRef .tc main_arg0) := by read_fold
theorem entry_keeps_arg2 : StableHlo.after hostOps0 Wv (Proc.devRef .tc main_arg2) = Wv (Proc.devRef .tc main_arg2) := by read_fold
theorem entry_keeps_arg3 : StableHlo.after hostOps0 Wv (Proc.devRef .tc main_arg3) = Wv (Proc.devRef .tc main_arg3) := by read_fold
theorem entry_keeps_arg4 : StableHlo.after hostOps0 Wv (Proc.devRef .tc main_arg4) = Wv (Proc.devRef .tc main_arg4) := by read_fold
theorem entry_keeps_arg5 : StableHlo.after hostOps0 Wv (Proc.devRef .tc main_arg5) = Wv (Proc.devRef .tc main_arg5) := by read_fold

/-! ## Between the products: the first aggregation and the maximum with zero -/

set_option maxHeartbeats 40000000 in
theorem hidden_at :
    StableHlo.after hostOps1_3 (StableHlo.after hostOps1_2 (StableHlo.after hostOps1_1 (StableHlo.after hostOps1 Wv))) (Proc.devRef .tc main_v47)
      = relu64 (aggregate64 (Wv (Proc.devRef .tc main_v1)) (Wv (Proc.devRef .tc main_v3)) (Wv (Proc.devRef .tc main_v4)) (Wv (Proc.devRef .tc main_arg3))) := by
  read_fold
  simp only [TRef.ofBuf, TRef.toBuf, cast_eq, id_eq]
  rfl

set_option maxHeartbeats 4000000 in
theorem middle_keeps_v1 :
    StableHlo.after hostOps1_3 (StableHlo.after hostOps1_2 (StableHlo.after hostOps1_1 (StableHlo.after hostOps1 Wv))) (Proc.devRef .tc main_v1)
      = Wv (Proc.devRef .tc main_v1) := by read_fold
set_option maxHeartbeats 4000000 in
theorem middle_keeps_v3 :
    StableHlo.after hostOps1_3 (StableHlo.after hostOps1_2 (StableHlo.after hostOps1_1 (StableHlo.after hostOps1 Wv))) (Proc.devRef .tc main_v3)
      = Wv (Proc.devRef .tc main_v3) := by read_fold
set_option maxHeartbeats 4000000 in
theorem middle_keeps_arg4 :
    StableHlo.after hostOps1_3 (StableHlo.after hostOps1_2 (StableHlo.after hostOps1_1 (StableHlo.after hostOps1 Wv))) (Proc.devRef .tc main_arg4)
      = Wv (Proc.devRef .tc main_arg4) := by read_fold
set_option maxHeartbeats 4000000 in
theorem middle_keeps_arg5 :
    StableHlo.after hostOps1_3 (StableHlo.after hostOps1_2 (StableHlo.after hostOps1_1 (StableHlo.after hostOps1 Wv))) (Proc.devRef .tc main_arg5)
      = Wv (Proc.devRef .tc main_arg5) := by read_fold

/-! ## After the second product: the second aggregation -/

set_option maxHeartbeats 40000000 in
theorem output_at :
    StableHlo.after hostOps2_2 (StableHlo.after hostOps2_1 (StableHlo.after hostOps2 Wv)) (Proc.devRef .tc main_v90)
      = aggregate10 (Wv (Proc.devRef .tc main_v1)) (Wv (Proc.devRef .tc main_v3)) (Wv (Proc.devRef .tc main_v48)) (Wv (Proc.devRef .tc main_arg5)) := by
  read_fold
  simp only [TRef.ofBuf, TRef.toBuf, cast_eq, id_eq]
  rfl

end Cert.KernelIdeal.Stretches

end
-- ==== Proof.KernelIsNetwork.lean ====
/-
  The kernel's program computes the network with its two Pallas regions as the matrix products.

  The contents of the buffers are followed from the launch to the return: the four host lines before the first region leave the
  sources and targets of the edge array; the first region leaves the product of x and W1 in its output array (and nothing else
  changed); the lines between leave the hidden activations; the second region leaves their product with W2; the last lines
  leave the result. At each boundary only the buffers a later item reads are followed. Put together, the result buffer holds the
  named stages composed over the launch contents of the six arguments, with the two regions' products in the two product places.
-/
import proofs.«160589_j7576322311022_1_alg».proof.Proof.Gen.KernelIdeal.Frame
import proofs.«160589_j7576322311022_1_alg».proof.Proof.FirstProduct
import proofs.«160589_j7576322311022_1_alg».proof.Proof.SecondProduct
import proofs.«160589_j7576322311022_1_alg».proof.Proof.Stretches
import Idealize.ShloMosaic.PureOps.Ideal

set_option maxRecDepth 16384

noncomputable section

namespace Cert.KernelIdeal.AsNetwork

open Cert.KernelIdeal Cert.KernelIdeal.Gen Cert.KernelIdeal.Stages Cert.KernelIdeal.Stretches
open Idealize.ShloMosaic Idealize.ShloMosaic.TcCoe Idealize.SL.Sem

variable (m : (ℓ : Loc nD τ sig) → Buf (Elt Ideal) ℓ) (ρ : Dev nD → PrngReg)

/-- At the first region's exit its output array holds the product of the arrays at x's and W1's buffers at its entry. -/
theorem first_product_at (c : Dev nD) : W2 (F := Ideal) m ρ c (Proc.devRef .tc main_v4)
    = FirstProduct.product (W1 (F := Ideal) m ρ c (Proc.devRef .tc main_arg0)) (W1 (F := Ideal) m ρ c (Proc.devRef .tc main_arg2)) :=
  (W2_arr m ρ c 2).trans (FirstProduct.array_eq (V1 m ρ) c)

/-- At the second region's exit its output array holds the product of the arrays at h's and W2's buffers at its entry. -/
theorem second_product_at (c : Dev nD) : W7 (F := Ideal) m ρ c (Proc.devRef .tc main_v48)
    = SecondProduct.product (W6 (F := Ideal) m ρ c (Proc.devRef .tc main_v47)) (W6 (F := Ideal) m ρ c (Proc.devRef .tc main_arg4)) :=
  (W7_arr m ρ c 2).trans (SecondProduct.array_eq (V6 m ρ) c)

/-- The result buffer at the return, as the network over the launch contents of the arguments. -/
theorem result_is_network (c : Dev nD) :
    W10 (F := Ideal) m ρ c (Proc.devRef .tc main_v90)
      = network (F := Ideal) FirstProduct.product SecondProduct.product
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- the first region's entry: the arguments as launched
  have x1 : W1 (F := Ideal) m ρ c (Proc.devRef .tc main_arg0) = m ((c.tc : Thread nD τ).loc main_arg0) := entry_keeps_arg0 (W0 m ρ c)
  have w1 : W1 (F := Ideal) m ρ c (Proc.devRef .tc main_arg2) = m ((c.tc : Thread nD τ).loc main_arg2) := entry_keeps_arg2 (W0 m ρ c)
  -- the first region's exit
  have s2 : W2 (F := Ideal) m ρ c (Proc.devRef .tc main_v1) = sourcesOf (m ((c.tc : Thread nD τ).loc main_arg1)) :=
    (W2_of_ne m ρ c main_v1 (by decide)).trans (sources_at (W0 m ρ c))
  have t2 : W2 (F := Ideal) m ρ c (Proc.devRef .tc main_v3) = targetsOf (m ((c.tc : Thread nD τ).loc main_arg1)) :=
    (W2_of_ne m ρ c main_v3 (by decide)).trans (targets_at (W0 m ρ c))
  have p2 : W2 (F := Ideal) m ρ c (Proc.devRef .tc main_v4)
      = FirstProduct.product (m ((c.tc : Thread nD τ).loc main_arg0)) (m ((c.tc : Thread nD τ).loc main_arg2)) := by
    rw [first_product_at, x1, w1]
  have b2 : W2 (F := Ideal) m ρ c (Proc.devRef .tc main_arg3) = m ((c.tc : Thread nD τ).loc main_arg3) :=
    (W2_of_ne m ρ c main_arg3 (by decide)).trans (entry_keeps_arg3 (W0 m ρ c))
  have v2 : W2 (F := Ideal) m ρ c (Proc.devRef .tc main_arg4) = m ((c.tc : Thread nD τ).loc main_arg4) :=
    (W2_of_ne m ρ c main_arg4 (by decide)).trans (entry_keeps_arg4 (W0 m ρ c))
  have c2 : W2 (F := Ideal) m ρ c (Proc.devRef .tc main_arg5) = m ((c.tc : Thread nD τ).loc main_arg5) :=
    (W2_of_ne m ρ c main_arg5 (by decide)).trans (entry_keeps_arg5 (W0 m ρ c))
  -- the second region's entry
  have h6 : W6 (F := Ideal) m ρ c (Proc.devRef .tc main_v47)
      = relu64 (aggregate64 (sourcesOf (m ((c.tc : Thread nD τ).loc main_arg1))) (targetsOf (m ((c.tc : Thread nD τ).loc main_arg1)))
          (FirstProduct.product (m ((c.tc : Thread nD τ).loc main_arg0)) (m ((c.tc : Thread nD τ).loc main_arg2)))
          (m ((c.tc : Thread nD τ).loc main_arg3))) :=
    (hidden_at (W2 m ρ c)).trans (by rw [s2, t2, p2, b2])
  have s6 : W6 (F := Ideal) m ρ c (Proc.devRef .tc main_v1) = sourcesOf (m ((c.tc : Thread nD τ).loc main_arg1)) :=
    (middle_keeps_v1 (W2 m ρ c)).trans s2
  have t6 : W6 (F := Ideal) m ρ c (Proc.devRef .tc main_v3) = targetsOf (m ((c.tc : Thread nD τ).loc main_arg1)) :=
    (middle_keeps_v3 (W2 m ρ c)).trans t2
  have v6 : W6 (F := Ideal) m ρ c (Proc.devRef .tc main_arg4) = m ((c.tc : Thread nD τ).loc main_arg4) :=
    (middle_keeps_arg4 (W2 m ρ c)).trans v2
  have c6 : W6 (F := Ideal) m ρ c (Proc.devRef .tc main_arg5) = m ((c.tc : Thread nD τ).loc main_arg5) :=
    (middle_keeps_arg5 (W2 m ρ c)).trans c2
  -- the second region's exit
  have p7 : W7 (F := Ideal) m ρ c (Proc.devRef .tc main_v48)
      = SecondProduct.product
          (relu64 (aggregate64 (sourcesOf (m ((c.tc : Thread nD τ).loc main_arg1))) (targetsOf (m ((c.tc : Thread nD τ).loc main_arg1)))
            (FirstProduct.product (m ((c.tc : Thread nD τ).loc main_arg0)) (m ((c.tc : Thread nD τ).loc main_arg2)))
            (m ((c.tc : Thread nD τ).loc main_arg3))))
          (m ((c.tc : Thread nD τ).loc main_arg4)) := by
    rw [second_product_at, h6, v6]
  have s7 : W7 (F := Ideal) m ρ c (Proc.devRef .tc main_v1) = sourcesOf (m ((c.tc : Thread nD τ).loc main_arg1)) :=
    (W7_of_ne m ρ c main_v1 (by decide)).trans s6
  have t7 : W7 (F := Ideal) m ρ c (Proc.devRef .tc main_v3) = targetsOf (m ((c.tc : Thread nD τ).loc main_arg1)) :=
    (W7_of_ne m ρ c main_v3 (by decide)).trans t6
  have c7 : W7 (F := Ideal) m ρ c (Proc.devRef .tc main_arg5) = m ((c.tc : Thread nD τ).loc main_arg5) :=
    (W7_of_ne m ρ c main_arg5 (by decide)).trans c6
  -- the return
  refine (output_at (W7 m ρ c)).trans ?_
  rw [s7, t7, p7, c7]
  rfl

end Cert.KernelIdeal.AsNetwork

end
-- ==== Proof.ReferenceIsNetwork.lean ====
/-
  The reference computes the network with jnp's dot_general as both matrix products: its result term, the composition of all
  its operations over the argument arrays, is the named stages composed, with `x @ W1` and `h @ W2` as the two products. The
  two sides are the same operations in the same order (the stages are definitions that unfold to them), for every float family.
-/
import proofs.«160589_j7576322311022_1_alg».proof.Proof.ReferenceRun
import proofs.«160589_j7576322311022_1_alg».proof.Proof.Stages

set_option maxRecDepth 16384

noncomputable section

namespace Cert.ReferenceIdeal.AsNetwork

open Cert.ReferenceIdeal Cert.ReferenceIdeal.Gen
open Idealize.ShloMosaic Idealize.ShloMosaic.TcCoe Idealize.SL.Sem

variable {F : FTy → Type} [FloatOps F]

set_option maxHeartbeats 40000000 in
theorem result_is_network (m' : (ℓ : Loc nD τ sig) → Buf (Elt F) ℓ) (c : Dev nD) :
    Cert.ReferenceIdeal.Value.res_main_v90 (F := F) m' c
      = Cert.KernelIdeal.Stages.network (F := F)
          (fun x w => Host.dotGeneral dot_S100000x512_S512x64_S100000x64_1_0_0_1_n_n none x w)
          (fun h w => Host.dotGeneral dot_S100000x64_S64x10_S100000x10_1_0_0_1_n_n none h w)
          (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5)) := by
  unfold Cert.ReferenceIdeal.Value.res_main_v90
  rfl

end Cert.ReferenceIdeal.AsNetwork

end
-- ==== Proof.lean ====
/-
  Two-layer graph convolution: the Pallas kernel against its jnp reference, over the extended reals.

  Both programs are the same host computation around two matrix products — take sources and targets from the edge array,
  append self loops, weigh each edge by the reciprocal square roots of its endpoints' degrees, gather, scale, scatter-add, add
  the bias; a maximum with zero between the layers — and differ only in how the products x · W1 and h · W2 are made: the
  reference by one dot_general each, the kernel by a Pallas region each that walks the 100000 rows in 25 blocks of 4000 and
  multiplies a block by the whole weight matrix on the matrix unit, after casting both to bf16, into a zero accumulator.

  On the extended reals a cast of format is the identity and both kinds of product are the plain sum over the contracted axis,
  so block by block the region writes the rows of the very array dot_general computes; the blocks tile the rows, so the arrays
  are equal, and equal arrays go through the same host computation to equal results. No law of arithmetic beyond that is used,
  and the finiteness of the inputs is not needed.

  The frames of the two kernel programs are the generated ones; the reference's frame is its run with the result dropped; the
  idealization rewrote no operation, so `preserves` is trivial.
-/
import proofs.«160589_j7576322311022_1_alg».proof.Defs
import proofs.«160589_j7576322311022_1_alg».proof.Proof.Gen.Kernel
import proofs.«160589_j7576322311022_1_alg».proof.Proof.Gen.Kernel.Frame
import proofs.«160589_j7576322311022_1_alg».proof.Proof.Gen.KernelIdeal
import proofs.«160589_j7576322311022_1_alg».proof.Proof.Gen.KernelIdeal.Frame
import proofs.«160589_j7576322311022_1_alg».proof.Proof.Gen.ReferenceIdeal
import proofs.«160589_j7576322311022_1_alg».proof.Proof.Gen.Pre_finite_inputs
import proofs.«160589_j7576322311022_1_alg».proof.Proof.NamedRun
import proofs.«160589_j7576322311022_1_alg».proof.Proof.ReferenceRun
import proofs.«160589_j7576322311022_1_alg».proof.Proof.DotAsSum
import proofs.«160589_j7576322311022_1_alg».proof.Proof.KernelIsNetwork
import proofs.«160589_j7576322311022_1_alg».proof.Proof.ReferenceIsNetwork
import Idealize.ShloMosaic.Adequacy
import Idealize.ShloMosaic.Init

noncomputable section

namespace Cert.Proof

open Idealize.ShloMosaic Idealize.SL.Sem

/-! ## The two kinds of product agree -/

/-- The first region's product is jnp's `x @ W1`: entry by entry both are the sum over k of x[r, k] · W1[k, q]. -/
theorem first_product_is_dot :
    Cert.KernelIdeal.FirstProduct.product
      = fun x w => Host.dotGeneral (F := Ideal) Cert.ReferenceIdeal.dot_S100000x512_S512x64_S100000x64_1_0_0_1_n_n none x w :=
  funext fun x => funext fun w => funext fun i => (Cert.ReferenceIdeal.DotAsSum.first_apply x w i).symm

/-- The second region's product is jnp's `h @ W2`. -/
theorem second_product_is_dot :
    Cert.KernelIdeal.SecondProduct.product
      = fun h w => Host.dotGeneral (F := Ideal) Cert.ReferenceIdeal.dot_S100000x64_S64x10_S100000x10_1_0_0_1_n_n none h w :=
  funext fun h => funext fun w => funext fun i => (Cert.ReferenceIdeal.DotAsSum.second_apply h w i).symm

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the agreed arguments in their result buffers: the reference's result term is the
    network over dot_general, the kernel's is the network over its regions' products, and the products are equal. -/
theorem algebraic : Cert.algebraic_KernelIdeal_ReferenceIdeal := by
  intro m ρ m' ρ' _ hagree
  refine ⟨fun c => Cert.ReferenceIdeal.Value.res_main_v90 (F := Ideal) m' c, ?_,
    Cert.ReferenceIdeal.Value.run (F := Ideal) m' ρ'⟩
  refine (θ_run Cert.KernelIdeal.defs _ _).mono (fun r h c => ⟨(h c).1.trans ?_, (h c).2⟩)
    (Cert.KernelIdeal.NamedRun.run_named (F := Ideal) m ρ)
  obtain ⟨h0, h1, h2, h3, h4, h5⟩ := hagree c
  show _ = Cert.ReferenceIdeal.Value.res_main_v90 (F := Ideal) m' c
  rw [Cert.KernelIdeal.AsNetwork.result_is_network m ρ c, Cert.ReferenceIdeal.AsNetwork.result_is_network m' c,
    h0, h1, h2, h3, h4, h5, first_product_is_dot, second_product_is_dot]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
